-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S1024x512 : Shape := ⟨2, ![1024, 512]⟩
abbrev S1024x64 : Shape := ⟨2, ![1024, 64]⟩
abbrev S64x512 : Shape := ⟨2, ![64, 512]⟩
abbrev S1024 : Shape := ⟨1, ![1024]⟩
abbrev S1024x1 : Shape := ⟨2, ![1024, 1]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S64x2048, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x512_S1024x512_0_0 : ∀ a, (![0, 0] : Fin 2 → Nat) a + S1024x512.size a ≤ S1024x512.size a
  h_S1024x512 : 0 < S1024x512.numel
  inb_S64x2048_S64x512_0_0 : ∀ a, (![0, 0] : Fin 2 → Nat) a + S64x512.size a ≤ S64x2048.size a
  h_S64x512 : 0 < S64x512.numel
  broadcasts_S1x64_S1024x64 : S1x64.Broadcasts S1024x64
  inb_S64x2048_S64x512_0_512 : ∀ a, (![0, 512] : Fin 2 → Nat) a + S64x512.size a ≤ S64x2048.size a
  inb_S64x2048_S64x512_0_1024 : ∀ a, (![0, 1024] : Fin 2 → Nat) a + S64x512.size a ≤ S64x2048.size a
  inb_S64x2048_S64x512_0_1536 : ∀ a, (![0, 1536] : Fin 2 → Nat) a + S64x512.size a ≤ S64x2048.size a
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x512_S64x512_S1024x64_1_1_0_0_n_n_wf : DotDims.WF S1024x512 S64x512 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x2048.size a
  hwx0_0 : ∀ i : grid0.Coords, EltTy.bits .f32 = 32 ∨ (Rect.block (s := S16384x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x2048.size a
  hwx0_1 : ∀ i : grid0.Coords, EltTy.bits .f32 = 32 ∨ (Rect.block (s := S16384x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x2048.size a
  hwx0_2 : ∀ i : grid0.Coords, EltTy.bits .f32 = 32 ∨ (Rect.block (s := S16384x2048) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x2048.size a
  hwx0_3 : ∀ i : grid0.Coords, EltTy.bits .f32 = 32 ∨ (Rect.block (s := S16384x2048) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .f32 = 32 ∨ (Rect.block (s := S64x2048) S64x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S16384x64.size a
  hwx0_6 : ∀ i : grid0.Coords, EltTy.bits .f32 = 32 ∨ (Rect.block (s := S16384x64) S1024x64.size (cc0_transform_6 i) (hinb0_6 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.LibSharedFrame.lean ====
/-
  A frame run for a pipelined kernel region whose INPUT windows may read one array through several block maps.

  When two windows of a region name the same array, that array's buffer cannot be handed whole to each of them.
  The launch instead deals the buffer's full share among the windows that read it, and the run's conclusion is
  the usual one: after the last grid point every window's array holds what the write-backs made of it (an input
  array its entry contents), and every unscoped buffer that is no window's array is as the region found it.
  The kernel here uses no semaphore of its own, no scratch it must describe and no random generator, so the
  invariant carried from point to point is just the scoped buffers the region does not stage.
-/
import Idealize.ShloMosaic.Lib.Pipeline.Frame

noncomputable section

namespace Cert.LibSharedFrame

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of one region whose windows may share arrays: `hsplit` says how the buffers behind the arrays,
    each whole at the region-entry contents `V`, are dealt to the windows at the proof data's shares. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibSharedFrame

end
-- ==== Proof.KFrame.lean ====
/-
  The frame of the router kernel's one pipelined region, and what its output array holds afterwards.

  The region has seven windows on a grid of 16 points. Windows 0 to 3 all read the activation array, each a
  [1024, 512] block: point t reads rows 1024·t … 1024·t + 1023, window k the columns 512·k … 512·k + 511.
  Window 4 is the whole [64, 2048] weight array and window 5 the bias as a [1, 64] row (the one host operation
  before the region reshapes the bias to that row); both are fetched once, at the first point. Window 6 is the
  output, written back at every point as rows 1024·t … of the [16384, 64] result.

  At each point the body loads the six input buffers, computes one [1024, 64] value from them and stores it over
  the whole output buffer (it also loads the output buffer first and ignores what it read). Because four windows
  read one array, that array's buffer is dealt to them in four quarter shares at the region's entry: reading
  needs no more, and the input arrays are never written. After the last point every input array is as it was and
  the output array is, block by block, what the body stored.
-/
import proofs.«141710_g76192719831303_cont_9to1_m_326_23_alg».proof.Proof.Gen.Kernel.Launch
import proofs.«141710_g76192719831303_cont_9to1_m_326_23_alg».proof.Proof.Gen.Kernel.Skeleton
import proofs.«141710_g76192719831303_cont_9to1_m_326_23_alg».proof.Proof.Gen.Kernel.Points
import proofs.«141710_g76192719831303_cont_9to1_m_326_23_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch memory after the bias has been reshaped to a row. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that one host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (an unfetched
    window's block index has not moved), for any proof data on these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rBias : Rect S1x64 := Rect.unit (s := S1x64) ![0, 0] S1x64.size inb_S1x64_S1x64_0_0
abbrev rAct : Rect S1024x512 := Rect.unit (s := S1024x512) ![0, 0] S1024x512.size inb_S1024x512_S1024x512_0_0
abbrev rWt0 : Rect S64x2048 := Rect.unit (s := S64x2048) ![0, 0] S64x512.size inb_S64x2048_S64x512_0_0
abbrev rWt1 : Rect S64x2048 := Rect.unit (s := S64x2048) ![0, 512] S64x512.size inb_S64x2048_S64x512_0_512
abbrev rWt2 : Rect S64x2048 := Rect.unit (s := S64x2048) ![0, 1024] S64x512.size inb_S64x2048_S64x512_0_1024
abbrev rWt3 : Rect S64x2048 := Rect.unit (s := S64x2048) ![0, 1536] S64x512.size inb_S64x2048_S64x512_0_1536
abbrev rOut : Rect S1024x64 := Rect.unit (s := S1024x64) ![0, 0] S1024x64.size inb_S1024x64_S1024x64_0_0

/-- What the body stores, from the six input buffers' contents: the payload of the four activation quarters,
    the four column quarters of the weights and the bias row. -/
def stored (x0 x1 x2 x3 : Vec F S1024x512 .f32) (x4 : Vec F S64x2048 .f32) (x5 : Vec F S1x64 .f32) : FVec F S1024x64 .f32 :=
  k0_pay1 (View.ld x5 rBias) (View.ld x0 rAct) (View.ld x4 rWt0) (View.ld x1 rAct) (View.ld x4 rWt1)
    (View.ld x2 rAct) (View.ld x4 rWt2) (View.ld x3 rAct) (View.ld x4 rWt3)

/-- The output buffer after the body: its one store, which covers it. -/
def outBuf (x0 x1 x2 x3 : Vec F S1024x512 .f32) (x4 : Vec F S64x2048 .f32) (x5 : Vec F S1x64 .f32) : Vec F S1024x64 .f32 :=
  View.canon [⟨rOut, stored x0 x1 x2 x3 x4 x5⟩]

theorem coverOut (p0 : Vec F S1024x64 .f32) (y : S1024x64.Idx) :
    ∃ pc ∈ ([⟨rOut, p0⟩] : List (View.Piece (Elt F) S1024x64 .f32)), y ∈ pc.1.set :=
  View.cover_of_tiled [⟨rOut, p0⟩] S1024x64.size (by rfl) y

/-! ## The body's triple -/

set_option maxHeartbeats 2000000 in
/-- The body on whole staging memrefs, the inputs' at read contents and the output's at anything, runs to a state
    with the inputs' as they were and the output's at `outBuf` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x512 .f32) (harg4 : arg4.IsWhole)
    (arg5 : Memref sig .tc .vmem S64x2048 .f32) (harg5 : arg5.IsWhole) (arg6 : Memref sig .tc .vmem S1x64 .f32) (harg6 : arg6.IsWhole)
    (arg7 : Memref sig .tc .vmem S1024x64 .f32) (harg7 : arg7.IsWhole)
    (x0 x1 x2 x3 : Vec F S1024x512 .f32) (x4 : Vec F S64x2048 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBuf x0 x1 x2 x3 x4 x5)) -∗ K ⟨⟩))
      ⊢ wp frame (wpE (defs₀ (F := F)) Variants.none c none) E (cc0__router_kernel i arg1 harg1 arg2 harg2 arg3 harg3 arg4 harg4 arg5 harg5 arg6 harg6 arg7 harg7) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

end Cert.Kernel.Fr

end
-- ==== Proof.KRun.lean ====
/-
  The proof data of the router kernel's region, its body obligation at every grid point, how the activation
  array is dealt to the four windows that read it, and the run: the three argument arrays end unchanged and the
  output array ends, block by block, at what the body stored.
-/
import proofs.«141710_g76192719831303_cont_9to1_m_326_23_alg».proof.Proof.KFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer still at its
    block and the output buffer at what the body stored from the six input blocks; the invariant is the scoped
    buffers the region does not stage; nothing is owed; the activation array is held by its four windows at the
    four quarters of the full share, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBuf (iblk m c 0 t) (iblk m c 1 t) (iblk m c 2 t) (iblk m c 3 t) (iblk m c 4 t) (iblk m c 5 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBuf (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## Dealing the arrays to the windows -/

/-- A window's array, held at the proof data's share at the region's entry, is the buffer behind it at that share at
    the region-entry contents: the array is the whole buffer. -/
theorem arr_entry (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

/-- The four buffers behind the seven windows' arrays, each whole at the full share at the region-entry contents,
    make the windows' arrays at the proof data's shares: the activation array's full share splits into its four
    quarters, one per window on it; the weights, the bias row and the output each go whole to their one window. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_eq_bigSepL_of_eq [main_arg0, main_arg1, main_call0_v0, main_v0] (by decide) (by decide), bigSep_W0]
  beta_reduce
  rw [arr_entry m c 0 fullShare.left.left rfl, arr_entry m c 1 fullShare.left.right rfl, arr_entry m c 2 fullShare.right.left rfl,
    arr_entry m c 3 fullShare.right.right rfl, arr_entry m c 4 fullShare rfl, arr_entry m c 5 fullShare rfl, arr_entry m c 6 fullShare rfl]
  rw [show (bigSepL [main_arg0, main_arg1, main_call0_v0, main_v0] fun b => (((c.tc : Thread nD τ).loc b) ↦{fullShare} V m c b : sProp 𝕄))
      = iprop((((c.tc : Thread nD τ).loc main_arg0) ↦{fullShare} V m c main_arg0) ∗ (((c.tc : Thread nD τ).loc main_arg1) ↦{fullShare} V m c main_arg1)
          ∗ (((c.tc : Thread nD τ).loc main_call0_v0) ↦{fullShare} V m c main_call0_v0) ∗ (((c.tc : Thread nD τ).loc main_v0) ↦{fullShare} V m c main_v0)) from rfl]
  iintro ⟨Hx, Hw, Hb, Ho⟩
  ihave Hx' := (pointsTo_share (PosShare.mem_left_op_right fullShare)).1 $$ Hx
  icases Hx' with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  isplitl [H3]; · iexact H3
  isplitl [Hw]; · iexact Hw
  isplitl [Hb]; · iexact Hb
  iexact Ho

/-! ## The run -/

set_option backward.isDefEq.respectTransparency.types false in
/-- From any memory with zero counters every weakly fair execution of the program terminates, every window's array
    ends at what the write-backs made of it, and every other unscoped buffer is as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The output array after the run is the proof data's. -/
theorem post_out (r : PUnit × MemSt nD τ sig (Elt F)) (h : Pipeline.FramePost cfgs (dats m) 0 (V m) r) (c : Dev nD) :
    r.2.mem ((c : Thread nD τ).loc main_v0) = (dats m 0 c).arrAt 6 cfg0.N :=
  (h c).1 6

/-- The activations end as launched: four windows stage them and none writes them back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The weights end as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- The bias is no window's array (its reshaped copy is): it bypasses the region. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run with the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_out m r h c, kept_main_arg0 m r h c, kept_main_arg1 m r h c, kept_main_arg2 m r h c⟩)
    (run_main m ρ)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_blocks m ρ)

end Cert.Kernel.Fr

end
-- ==== Proof.KIFrame.lean ====
/-
  The frame of the router kernel's one pipelined region, and what its output array holds afterwards.

  The region has seven windows on a grid of 16 points. Windows 0 to 3 all read the activation array, each a
  [1024, 512] block: point t reads rows 1024·t … 1024·t + 1023, window k the columns 512·k … 512·k + 511.
  Window 4 is the whole [64, 2048] weight array and window 5 the bias as a [1, 64] row (the one host operation
  before the region reshapes the bias to that row); both are fetched once, at the first point. Window 6 is the
  output, written back at every point as rows 1024·t … of the [16384, 64] result.

  At each point the body loads the six input buffers, computes one [1024, 64] value from them and stores it over
  the whole output buffer (it also loads the output buffer first and ignores what it read). Because four windows
  read one array, that array's buffer is dealt to them in four quarter shares at the region's entry: reading
  needs no more, and the input arrays are never written. After the last point every input array is as it was and
  the output array is, block by block, what the body stored.
-/
import proofs.«141710_g76192719831303_cont_9to1_m_326_23_alg».proof.Proof.Gen.KernelIdeal.Launch
import proofs.«141710_g76192719831303_cont_9to1_m_326_23_alg».proof.Proof.Gen.KernelIdeal.Skeleton
import proofs.«141710_g76192719831303_cont_9to1_m_326_23_alg».proof.Proof.Gen.KernelIdeal.Points
import proofs.«141710_g76192719831303_cont_9to1_m_326_23_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch memory after the bias has been reshaped to a row. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that one host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (an unfetched
    window's block index has not moved), for any proof data on these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rBias : Rect S1x64 := Rect.unit (s := S1x64) ![0, 0] S1x64.size inb_S1x64_S1x64_0_0
abbrev rAct : Rect S1024x512 := Rect.unit (s := S1024x512) ![0, 0] S1024x512.size inb_S1024x512_S1024x512_0_0
abbrev rWt0 : Rect S64x2048 := Rect.unit (s := S64x2048) ![0, 0] S64x512.size inb_S64x2048_S64x512_0_0
abbrev rWt1 : Rect S64x2048 := Rect.unit (s := S64x2048) ![0, 512] S64x512.size inb_S64x2048_S64x512_0_512
abbrev rWt2 : Rect S64x2048 := Rect.unit (s := S64x2048) ![0, 1024] S64x512.size inb_S64x2048_S64x512_0_1024
abbrev rWt3 : Rect S64x2048 := Rect.unit (s := S64x2048) ![0, 1536] S64x512.size inb_S64x2048_S64x512_0_1536
abbrev rOut : Rect S1024x64 := Rect.unit (s := S1024x64) ![0, 0] S1024x64.size inb_S1024x64_S1024x64_0_0

/-- What the body stores, from the six input buffers' contents: the payload of the four activation quarters,
    the four column quarters of the weights and the bias row. -/
def stored (x0 x1 x2 x3 : Vec F S1024x512 .f32) (x4 : Vec F S64x2048 .f32) (x5 : Vec F S1x64 .f32) : FVec F S1024x64 .f32 :=
  k0_pay1 (View.ld x5 rBias) (View.ld x0 rAct) (View.ld x4 rWt0) (View.ld x1 rAct) (View.ld x4 rWt1)
    (View.ld x2 rAct) (View.ld x4 rWt2) (View.ld x3 rAct) (View.ld x4 rWt3)

/-- The output buffer after the body: its one store, which covers it. -/
def outBuf (x0 x1 x2 x3 : Vec F S1024x512 .f32) (x4 : Vec F S64x2048 .f32) (x5 : Vec F S1x64 .f32) : Vec F S1024x64 .f32 :=
  View.canon [⟨rOut, stored x0 x1 x2 x3 x4 x5⟩]

theorem coverOut (p0 : Vec F S1024x64 .f32) (y : S1024x64.Idx) :
    ∃ pc ∈ ([⟨rOut, p0⟩] : List (View.Piece (Elt F) S1024x64 .f32)), y ∈ pc.1.set :=
  View.cover_of_tiled [⟨rOut, p0⟩] S1024x64.size (by rfl) y

/-! ## The body's triple -/

set_option maxHeartbeats 2000000 in
/-- The body on whole staging memrefs, the inputs' at read contents and the output's at anything, runs to a state
    with the inputs' as they were and the output's at `outBuf` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x512 .f32) (harg4 : arg4.IsWhole)
    (arg5 : Memref sig .tc .vmem S64x2048 .f32) (harg5 : arg5.IsWhole) (arg6 : Memref sig .tc .vmem S1x64 .f32) (harg6 : arg6.IsWhole)
    (arg7 : Memref sig .tc .vmem S1024x64 .f32) (harg7 : arg7.IsWhole)
    (x0 x1 x2 x3 : Vec F S1024x512 .f32) (x4 : Vec F S64x2048 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBuf x0 x1 x2 x3 x4 x5)) -∗ K ⟨⟩))
      ⊢ wp frame (wpE (defs₀ (F := F)) Variants.none c none) E (cc0__router_kernel i arg1 harg1 arg2 harg2 arg3 harg3 arg4 harg4 arg5 harg5 arg6 harg6 arg7 harg7) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

end Cert.KernelIdeal.Fr

end
-- ==== Proof.KIRun.lean ====
/-
  The proof data of the router kernel's region, its body obligation at every grid point, how the activation
  array is dealt to the four windows that read it, and the run: the three argument arrays end unchanged and the
  output array ends, block by block, at what the body stored.
-/
import proofs.«141710_g76192719831303_cont_9to1_m_326_23_alg».proof.Proof.KIFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer still at its
    block and the output buffer at what the body stored from the six input blocks; the invariant is the scoped
    buffers the region does not stage; nothing is owed; the activation array is held by its four windows at the
    four quarters of the full share, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBuf (iblk m c 0 t) (iblk m c 1 t) (iblk m c 2 t) (iblk m c 3 t) (iblk m c 4 t) (iblk m c 5 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBuf (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## Dealing the arrays to the windows -/

/-- A window's array, held at the proof data's share at the region's entry, is the buffer behind it at that share at
    the region-entry contents: the array is the whole buffer. -/
theorem arr_entry (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

/-- The four buffers behind the seven windows' arrays, each whole at the full share at the region-entry contents,
    make the windows' arrays at the proof data's shares: the activation array's full share splits into its four
    quarters, one per window on it; the weights, the bias row and the output each go whole to their one window. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_eq_bigSepL_of_eq [main_arg0, main_arg1, main_call0_v0, main_v0] (by decide) (by decide), bigSep_W0]
  beta_reduce
  rw [arr_entry m c 0 fullShare.left.left rfl, arr_entry m c 1 fullShare.left.right rfl, arr_entry m c 2 fullShare.right.left rfl,
    arr_entry m c 3 fullShare.right.right rfl, arr_entry m c 4 fullShare rfl, arr_entry m c 5 fullShare rfl, arr_entry m c 6 fullShare rfl]
  rw [show (bigSepL [main_arg0, main_arg1, main_call0_v0, main_v0] fun b => (((c.tc : Thread nD τ).loc b) ↦{fullShare} V m c b : sProp 𝕄))
      = iprop((((c.tc : Thread nD τ).loc main_arg0) ↦{fullShare} V m c main_arg0) ∗ (((c.tc : Thread nD τ).loc main_arg1) ↦{fullShare} V m c main_arg1)
          ∗ (((c.tc : Thread nD τ).loc main_call0_v0) ↦{fullShare} V m c main_call0_v0) ∗ (((c.tc : Thread nD τ).loc main_v0) ↦{fullShare} V m c main_v0)) from rfl]
  iintro ⟨Hx, Hw, Hb, Ho⟩
  ihave Hx' := (pointsTo_share (PosShare.mem_left_op_right fullShare)).1 $$ Hx
  icases Hx' with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  isplitl [H3]; · iexact H3
  isplitl [Hw]; · iexact Hw
  isplitl [Hb]; · iexact Hb
  iexact Ho

/-! ## The run -/

set_option backward.isDefEq.respectTransparency.types false in
/-- From any memory with zero counters every weakly fair execution of the program terminates, every window's array
    ends at what the write-backs made of it, and every other unscoped buffer is as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The output array after the run is the proof data's. -/
theorem post_out (r : PUnit × MemSt nD τ sig (Elt F)) (h : Pipeline.FramePost cfgs (dats m) 0 (V m) r) (c : Dev nD) :
    r.2.mem ((c : Thread nD τ).loc main_v0) = (dats m 0 c).arrAt 6 cfg0.N :=
  (h c).1 6

/-- The activations end as launched: four windows stage them and none writes them back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The weights end as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- The bias is no window's array (its reshaped copy is): it bypasses the region. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run with the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_out m r h c, kept_main_arg0 m r h c, kept_main_arg1 m r h c, kept_main_arg2 m r h c⟩)
    (run_main m ρ)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_blocks m ρ)

end Cert.KernelIdeal.Fr

end
-- ==== Proof.Spec.lean ====
/-
  The router's value, stated once over the whole argument arrays.

  For a token (row) r and an expert (column) e the logit is the inner product of row r of the activations with
  row e of the gate weights, plus the expert's bias; the result is the softmax of a token's 64 logits, taken
  the numerically stable way: subtract the row's maximum, exponentiate, divide by the row's sum of exponentials.
  The maximum is the fold of `max` from the pattern of minus infinity, which is how both programs take it.
-/
import Idealize.ShloMosaic.PureOps.Ideal
import Idealize.ShloMosaic.Lib.ValueIdx

noncomputable section

namespace Cert.RouterSpec

open Idealize.ShloMosaic Idealize.ShloMosaic.ValueIdx

abbrev SX : Shape := ⟨2, ![16384, 2048]⟩
abbrev SW : Shape := ⟨2, ![64, 2048]⟩
abbrev SB : Shape := ⟨1, ![64]⟩
abbrev SO : Shape := ⟨2, ![16384, 64]⟩

/-- The pattern of minus infinity both programs start a row's maximum from. -/
abbrev negInf : EReal := Ideal.ofBits .f32 0xFF800000#32

/-- Token `r`'s logit for expert `e`: the inner product over the 2048 features, plus the bias. -/
def logit (x : SX.Idx → EReal) (W : SW.Idx → EReal) (b : SB.Idx → EReal) (r : Fin 16384) (e : Fin 64) : EReal :=
  (∑ k : Fin 2048, x (ix2 r k) * W (ix2 e k)) + b (ix1 e)

/-- A row's maximum, folded from minus infinity. -/
def rowMax (L : Fin 64 → EReal) : EReal := (Finset.univ : Finset (Fin 64)).fold max negInf L

/-- The stable softmax of one row of 64 logits, at column `e`. -/
def soft (L : Fin 64 → EReal) (e : Fin 64) : EReal :=
  Ideal.div (Ideal.exp (L e - rowMax L)) (∑ e' : Fin 64, Ideal.exp (L e' - rowMax L))

/-- The router's output as one function of the three argument arrays. -/
def G (x : SX.Idx → EReal) (W : SW.Idx → EReal) (b : SB.Idx → EReal) : SO.Idx → EReal :=
  fun i => soft (logit x W b (i 0)) (i 1)

theorem G_apply (x : SX.Idx → EReal) (W : SW.Idx → EReal) (b : SB.Idx → EReal) (r : Fin 16384) (e : Fin 64) :
    G x W b (ix2 r e) = soft (logit x W b r) e := rfl

end Cert.RouterSpec

end
-- ==== Proof.KernelPay.lean ====
/-
  The kernel body's arithmetic read at one element.

  The body adds the bias row to four products of a 1024 x 512 block of activations with the transpose of a
  64 x 512 block of gate weights, one product per quarter of the 2048 features, then takes the stable softmax
  of each row of 64 logits. Read at row `p` and column `q` this is `soft` of the row's logits at `q`; and when
  the eight blocks are the four column quarters of rows `t * 1024 ..` of the activations and of the weights, the
  four partial inner products add up to the whole inner product over the 2048 features, so the element is the
  router's value `G` at row `t * 1024 + p`, column `q`.
-/
import proofs.«141710_g76192719831303_cont_9to1_m_326_23_alg».proof.Proof.Gen.KernelIdeal.Skeleton
import proofs.«141710_g76192719831303_cont_9to1_m_326_23_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

open scoped BigOperators

namespace Cert.KernelIdeal.PayValue

open Cert.KernelIdeal Cert.KernelIdeal.Gen Cert.RouterSpec Idealize.ShloMosaic Idealize.ShloMosaic.ValueIdx

/-! ## The keepdims column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One product read at an element -/

theorem lhs_dot_0 (i : S1024x64.Idx) (q : dot_S1024x512_S64x512_S1024x64_1_1_0_0_n_n.contr.Idx) :
    (dot_S1024x512_S64x512_S1024x64_1_1_0_0_n_n.lhsIdx i q 0).val = (i 0).val := by
  unfold DotDims.lhsIdx
  rw [dif_neg (show ¬(0 : Fin S1024x512.rank) ∈ dot_S1024x512_S64x512_S1024x64_1_1_0_0_n_n.lhsBatch by decide), dif_pos (show (0 : Fin S1024x512.rank) ∈ dot_S1024x512_S64x512_S1024x64_1_1_0_0_n_n.lhsNonContracting by decide)]
  rfl
theorem lhs_dot_1 (i : S1024x64.Idx) (q : dot_S1024x512_S64x512_S1024x64_1_1_0_0_n_n.contr.Idx) :
    (dot_S1024x512_S64x512_S1024x64_1_1_0_0_n_n.lhsIdx i q 1).val = (q ⟨0, by decide⟩).val :=
  dot_S1024x512_S64x512_S1024x64_1_1_0_0_n_n.lhsIdx_val_of_single rfl i q
theorem rhs_dot_0 (i : S1024x64.Idx) (q : dot_S1024x512_S64x512_S1024x64_1_1_0_0_n_n.contr.Idx) :
    (dot_S1024x512_S64x512_S1024x64_1_1_0_0_n_n.rhsIdx i q 0).val = (i 1).val := by
  unfold DotDims.rhsIdx
  rw [dif_neg (show ¬(0 : Fin S64x512.rank) ∈ dot_S1024x512_S64x512_S1024x64_1_1_0_0_n_n.rhsBatch by decide), dif_pos (show (0 : Fin S64x512.rank) ∈ dot_S1024x512_S64x512_S1024x64_1_1_0_0_n_n.rhsNonContracting by decide)]
  rfl
theorem rhs_dot_1 (i : S1024x64.Idx) (q : dot_S1024x512_S64x512_S1024x64_1_1_0_0_n_n.contr.Idx) :
    (dot_S1024x512_S64x512_S1024x64_1_1_0_0_n_n.rhsIdx i q 1).val = (q ⟨0, by decide⟩).val :=
  dot_S1024x512_S64x512_S1024x64_1_1_0_0_n_n.rhsIdx_val_of_single rfl i q

/-- A block of activations times the transpose of a block of weights, into the zero accumulator: at `(p, e)` the inner
    product of the activations' row `p` with the weights' row `e` over the block's 512 features. -/
theorem matmul_zero_apply (A : FVec Ideal S1024x512 .f32) (B : FVec Ideal S64x512 .f32) (p : Fin 1024) (e : Fin 64) :
    matmul dot_S1024x512_S64x512_S1024x64_1_1_0_0_n_n none A B (constant (F := Ideal) S1024x64 .f32 0x00000000#32) (ix2 p e)
      = ∑ k : Fin 512, A (ix2 p k) * B (ix2 e k) := by
  simp only [matmul]
  rw [Ideal.matmul_constant_zero_apply, ← Equiv.sum_comp (contrEquiv1 dot_S1024x512_S64x512_S1024x64_1_1_0_0_n_n 512 rfl rfl).symm]
  refine Finset.sum_congr rfl fun k _ => ?_
  have hk := contrEquiv1_symm_val dot_S1024x512_S64x512_S1024x64_1_1_0_0_n_n 512 rfl rfl k
  have el : dot_S1024x512_S64x512_S1024x64_1_1_0_0_n_n.lhsIdx (ix2 p e) ((contrEquiv1 dot_S1024x512_S64x512_S1024x64_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S64x512_S1024x64_1_1_0_0_n_n.rhsIdx (ix2 p e) ((contrEquiv1 dot_S1024x512_S64x512_S1024x64_1_1_0_0_n_n 512 rfl rfl).symm k) = ix2 e k := funext fun a => Fin.ext (by
    match a with
    | ⟨0, _⟩ => exact rhs_dot_0 _ _
    | ⟨1, _⟩ => exact (rhs_dot_1 _ _).trans hk)
  rw [el, er]

/-! ## The two row reductions read at a row -/

/-- A row index with the column `k` put back is `(p, k)`. -/
theorem lift_row (h : S1024x64.Reduces [1] S1024) (p : Fin 1024) (k : Fin 64) : h.lift (ix1 p) k = ix2 p k :=
  funext fun a => Fin.ext (by
    match a with
    | ⟨0, _⟩ => rfl
    | ⟨1, _⟩ => rfl)

/-- The row maximum the body takes is the fold of `max` from minus infinity over the row's 64 entries. -/
theorem rowMax_apply (src : FVec Ideal S1024x64 .f32) (h : S1024x64.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p) = rowMax (fun e => src (ix2 p e)) := by
  refine (Ideal.multiReduction_maximumf_single src 0xFF800000#32 h hφ hacc (ix1 p)).trans ?_
  have hf : (src ∘ h.lift (ix1 p)) = fun e : Fin 64 => src (ix2 p e) := funext fun k => congrArg src (lift_row h p k)
  rw [hf]
  rfl

/-- The row sum the body takes is the sum of the row's 64 entries. -/
theorem rowSum_apply (src : FVec Ideal S1024x64 .f32) (h : S1024x64.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ e : Fin 64, src (ix2 p e) := by
  refine (Ideal.multiReduction_add_single src 0x00000000#32 h hφ hacc (ix1 p)).trans ?_
  exact Finset.sum_congr rfl fun k _ => congrArg src (lift_row h p k)

/-! ## The softmax tail of the body -/

/-- Whatever the logits `L`: subtracting each row's maximum, exponentiating and dividing by the row's sum of
    exponentials is, at `(p, q)`, the stable softmax of row `p` at `q`. -/
theorem softmax_tail_apply (L : FVec Ideal S1024x64 .f32)
    (hr : S1024x64.Reduces [1] S1024) (hc : S1024.ShapeCasts S1024x1) (hb : S1024x1.Broadcasts S1024x64)
    (hφ : FKind.Formats .f32) (hmax : (0xFF800000#32 : BitVec 32) = FKind.maximumf.neutral .f32 hφ)
    (hadd : (0x00000000#32 : BitVec 32) = FKind.add.neutral .f32 hφ) (p : Fin 1024) (q : Fin 64) :
    divf (exp (subf L (broadcastTo S1024x64 (shapeCast S1024x1 (multiReduction (F := Ideal) .maximumf [1] S1024 L 0xFF800000#32 hr hφ hmax) hc) hb)))
        (broadcastTo S1024x64 (shapeCast S1024x1 (multiReduction (F := Ideal) .add [1] S1024
          (exp (subf L (broadcastTo S1024x64 (shapeCast S1024x1 (multiReduction (F := Ideal) .maximumf [1] S1024 L 0xFF800000#32 hr hφ hmax) hc) hb)))
          0x00000000#32 hr hφ hadd) hc) hb) (ix2 p q)
      = soft (fun e => L (ix2 p e)) q := by
  have hM : ∀ (p' : Fin 1024) (c : Fin 64),
      broadcastTo S1024x64 (shapeCast S1024x1 (multiReduction (F := Ideal) .maximumf [1] S1024 L 0xFF800000#32 hr hφ hmax) hc) hb (ix2 p' c)
        = rowMax (fun e => L (ix2 p' e)) := by
    intro p' c
    rw [broadcastTo_a1_ab_apply, shapeCast_a_a1_apply, rowMax_apply]
  generalize broadcastTo S1024x64 (shapeCast S1024x1 (multiReduction (F := Ideal) .maximumf [1] S1024 L 0xFF800000#32 hr hφ hmax) hc) hb = Mv at hM ⊢
  have hE : ∀ c : Fin 64, exp (subf L Mv) (ix2 p c) = Ideal.exp (L (ix2 p c) - rowMax (fun e => L (ix2 p e))) := by
    intro c
    show Ideal.exp (L (ix2 p c) - Mv (ix2 p c)) = _
    rw [hM]
  rw [divf_apply, broadcastTo_a1_ab_apply, shapeCast_a_a1_apply, rowSum_apply, hE q]
  unfold soft
  exact congrArg _ (Finset.sum_congr rfl fun c _ => hE c)

/-! ## The body's logits read at an element -/

/-- The logit the body forms at `(p, e)`: the bias plus the four partial inner products, added one after another. -/
def blockLogit (v0 : FVec Ideal S1x64 .f32) (v2 v7 v11 v15 : FVec Ideal S1024x512 .f32) (v3 v8 v12 v16 : FVec Ideal S64x512 .f32)
    (p : Fin 1024) (e : Fin 64) : EReal :=
  (((v0 (ix2 (0 : Fin 1) e) + ∑ k : Fin 512, v2 (ix2 p k) * v3 (ix2 e k)) + ∑ k : Fin 512, v7 (ix2 p k) * v8 (ix2 e k))
    + ∑ k : Fin 512, v11 (ix2 p k) * v12 (ix2 e k)) + ∑ k : Fin 512, v15 (ix2 p k) * v16 (ix2 e k)

/-- The body's logits as one vector: the bias row broadcast over the rows, plus the four products in turn. -/
def logitsVec (v0 : FVec Ideal S1x64 .f32) (v2 v7 v11 v15 : FVec Ideal S1024x512 .f32) (v3 v8 v12 v16 : FVec Ideal S64x512 .f32)
    (hc : S1x64.ShapeCasts S1x64) (hb : S1x64.Broadcasts S1024x64) : FVec Ideal S1024x64 .f32 :=
  addf (addf (addf (addf (broadcastTo S1024x64 (shapeCast S1x64 v0 hc) hb)
    (matmul dot_S1024x512_S64x512_S1024x64_1_1_0_0_n_n none v2 v3 (constant (F := Ideal) S1024x64 .f32 0x00000000#32)))
    (matmul dot_S1024x512_S64x512_S1024x64_1_1_0_0_n_n none v7 v8 (constant (F := Ideal) S1024x64 .f32 0x00000000#32)))
    (matmul dot_S1024x512_S64x512_S1024x64_1_1_0_0_n_n none v11 v12 (constant (F := Ideal) S1024x64 .f32 0x00000000#32)))
    (matmul dot_S1024x512_S64x512_S1024x64_1_1_0_0_n_n none v15 v16 (constant (F := Ideal) S1024x64 .f32 0x00000000#32))

theorem logitsVec_apply (v0 : FVec Ideal S1x64 .f32) (v2 v7 v11 v15 : FVec Ideal S1024x512 .f32) (v3 v8 v12 v16 : FVec Ideal S64x512 .f32)
    (hc : S1x64.ShapeCasts S1x64) (hb : S1x64.Broadcasts S1024x64) (p : Fin 1024) (e : Fin 64) :
    logitsVec v0 v2 v7 v11 v15 v3 v8 v12 v16 hc hb (ix2 p e) = blockLogit v0 v2 v7 v11 v15 v3 v8 v12 v16 p e := by
  unfold logitsVec blockLogit
  rw [addf_apply, addf_apply, addf_apply, addf_apply, matmul_zero_apply, matmul_zero_apply, matmul_zero_apply, matmul_zero_apply,
    broadcastTo_1b_ab_apply, shapeCast_self]

/-- The body's stored value at `(p, q)`: the stable softmax of row `p`'s logits at `q`. -/
theorem pay_eq_soft (v0 : Vec Ideal S1x64 .f32) (v2 v7 v11 v15 : Vec Ideal S1024x512 .f32) (v3 v8 v12 v16 : Vec Ideal S64x512 .f32)
    (p : Fin 1024) (q : Fin 64) :
    k0_pay1 (F := Ideal) v0 v2 v3 v7 v8 v11 v12 v15 v16 (ix2 p q) = soft (fun e => blockLogit v0 v2 v7 v11 v15 v3 v8 v12 v16 p e) q := by
  have h := softmax_tail_apply (logitsVec v0 v2 v7 v11 v15 v3 v8 v12 v16 shapeCasts_S1x64_S1x64 broadcasts_S1x64_S1024x64)
    reduces_S1024x64_S1024 shapeCasts_S1024_S1024x1 broadcasts_S1024x1_S1024x64 (.inl rfl) rfl rfl p q
  have hL : (fun e => logitsVec v0 v2 v7 v11 v15 v3 v8 v12 v16 shapeCasts_S1x64_S1x64 broadcasts_S1x64_S1024x64 (ix2 p e))
      = fun e => blockLogit v0 v2 v7 v11 v15 v3 v8 v12 v16 p e := funext fun e => logitsVec_apply _ _ _ _ _ _ _ _ _ _ _ p e
  rw [hL] at h
  exact h

/-! ## The four quarters of the inner product -/

section Quarters
variable {M : Type*} [AddCommMonoid M]

/-- A sum over `m + n` indices is the sum over the first `m` plus the sum over the last `n`. -/
theorem sum_split (m n : ℕ) (f : Fin (m + n) → M) :
    ∑ i, f i = ∑ i : Fin m, f ⟨i.val, Nat.lt_add_right n i.isLt⟩ + ∑ i : Fin n, f ⟨m + i.val, Nat.add_lt_add_left i.isLt m⟩ :=
  Fin.sum_univ_add f

theorem col_lt0 (k : Fin 512) : k.val < 2048 := by have := k.isLt; omega
theorem col_lt1 (k : Fin 512) : 512 + k.val < 2048 := by have := k.isLt; omega
theorem col_lt2 (k : Fin 512) : 1024 + k.val < 2048 := by have := k.isLt; omega
theorem col_lt3 (k : Fin 512) : 1536 + k.val < 2048 := by have := k.isLt; omega

/-- A sum over the 2048 features is the sum of the sums over its four quarters of 512, added one after another. -/
theorem sum_quarters (f : Fin 2048 → M) :
    ∑ k, f k = ((∑ k : Fin 512, f ⟨k.val, col_lt0 k⟩ + ∑ k : Fin 512, f ⟨512 + k.val, col_lt1 k⟩)
      + ∑ k : Fin 512, f ⟨1024 + k.val, col_lt2 k⟩) + ∑ k : Fin 512, f ⟨1536 + k.val, col_lt3 k⟩ := by
  have h3 : ∑ k, f k = ∑ i : Fin 1536, f ⟨i.val, by have := i.isLt; omega⟩ + ∑ i : Fin 512, f ⟨1536 + i.val, col_lt3 i⟩ :=
    sum_split 1536 512 f
  have h2 : ∑ i : Fin 1536, f ⟨i.val, by have := i.isLt; omega⟩
      = ∑ i : Fin 1024, f ⟨i.val, by have := i.isLt; omega⟩ + ∑ i : Fin 512, f ⟨1024 + i.val, col_lt2 i⟩ :=
    sum_split 1024 512 (fun i => f ⟨i.val, by have := i.isLt; omega⟩)
  have h1 : ∑ i : Fin 1024, f ⟨i.val, by have := i.isLt; omega⟩
      = ∑ i : Fin 512, f ⟨i.val, col_lt0 i⟩ + ∑ i : Fin 512, f ⟨512 + i.val, col_lt1 i⟩ :=
    sum_split 512 512 (fun i => f ⟨i.val, by have := i.isLt; omega⟩)
  rw [h3, h2, h1]

/-- The bias added first and the four partial sums after it, against the four partial sums and the bias last:
    commutativity and associativity of the addition only. -/
theorem regroup (b A B C D : M) : (((b + A) + B) + C) + D = (((A + B) + C) + D) + b := by
  rw [add_comm b A, add_right_comm A b B, add_right_comm (A + B) b C, add_right_comm (A + B + C) b D]

end Quarters

/-! ## The body's value against the router's -/

theorem row_lt (t : Fin 16) (p : Fin 1024) : t.val * 1024 + p.val < 16384 := by have := t.isLt; have := p.isLt; omega

/-- When the eight blocks are the four column quarters of rows `t * 1024 ..` of the activations and of the gate
    weights, and the bias row is the bias, the body's logit at `(p, e)` is the router's logit of row `t * 1024 + p`. -/
theorem blockLogit_eq_logit (x : SX.Idx → EReal) (W : SW.Idx → EReal) (b : SB.Idx → EReal) (t : Fin 16)
    (v0 : Vec Ideal S1x64 .f32) (v2 v7 v11 v15 : Vec Ideal S1024x512 .f32) (v3 v8 v12 v16 : Vec Ideal S64x512 .f32)
    (h0 : ∀ e : Fin 64, v0 (ix2 (0 : Fin 1) e) = b (ix1 e))
    (h2  : ∀ (p : Fin 1024) (k : Fin 512), v2  (ix2 p k) = x (ix2 (⟨t.val * 1024 + p.val, row_lt t p⟩ : Fin 16384) (⟨k.val, col_lt0 k⟩ : Fin 2048)))
    (h7  : ∀ (p : Fin 1024) (k : Fin 512), v7  (ix2 p k) = x (ix2 (⟨t.val * 1024 + p.val, row_lt t p⟩ : Fin 16384) (⟨512 + k.val, col_lt1 k⟩ : Fin 2048)))
    (h11 : ∀ (p : Fin 1024) (k : Fin 512), v11 (ix2 p k) = x (ix2 (⟨t.val * 1024 + p.val, row_lt t p⟩ : Fin 16384) (⟨1024 + k.val, col_lt2 k⟩ : Fin 2048)))
    (h15 : ∀ (p : Fin 1024) (k : Fin 512), v15 (ix2 p k) = x (ix2 (⟨t.val * 1024 + p.val, row_lt t p⟩ : Fin 16384) (⟨1536 + k.val, col_lt3 k⟩ : Fin 2048)))
    (h3  : ∀ (e : Fin 64) (k : Fin 512), v3  (ix2 e k) = W (ix2 e (⟨k.val, col_lt0 k⟩ : Fin 2048)))
    (h8  : ∀ (e : Fin 64) (k : Fin 512), v8  (ix2 e k) = W (ix2 e (⟨512 + k.val, col_lt1 k⟩ : Fin 2048)))
    (h12 : ∀ (e : Fin 64) (k : Fin 512), v12 (ix2 e k) = W (ix2 e (⟨1024 + k.val, col_lt2 k⟩ : Fin 2048)))
    (h16 : ∀ (e : Fin 64) (k : Fin 512), v16 (ix2 e k) = W (ix2 e (⟨1536 + k.val, col_lt3 k⟩ : Fin 2048)))
    (p : Fin 1024) (e : Fin 64) :
    blockLogit v0 v2 v7 v11 v15 v3 v8 v12 v16 p e = logit x W b (⟨t.val * 1024 + p.val, row_lt t p⟩ : Fin 16384) e := by
  unfold blockLogit logit
  rw [sum_quarters (fun k : Fin 2048 => x (ix2 (⟨t.val * 1024 + p.val, row_lt t p⟩ : Fin 16384) k) * W (ix2 e k)), h0 e,
    Finset.sum_congr rfl (fun k _ => by rw [h2 p k, h3 e k] :
      ∀ k ∈ (Finset.univ : Finset (Fin 512)), v2 (ix2 p k) * v3 (ix2 e k) = _),
    Finset.sum_congr rfl (fun k _ => by rw [h7 p k, h8 e k] :
      ∀ k ∈ (Finset.univ : Finset (Fin 512)), v7 (ix2 p k) * v8 (ix2 e k) = _),
    Finset.sum_congr rfl (fun k _ => by rw [h11 p k, h12 e k] :
      ∀ k ∈ (Finset.univ : Finset (Fin 512)), v11 (ix2 p k) * v12 (ix2 e k) = _),
    Finset.sum_congr rfl (fun k _ => by rw [h15 p k, h16 e k] :
      ∀ k ∈ (Finset.univ : Finset (Fin 512)), v15 (ix2 p k) * v16 (ix2 e k) = _)]
  exact regroup _ _ _ _ _

/-- The body's stored value at `(p, q)` is the router's value at row `t * 1024 + p`, column `q`. -/
theorem pay_eq_G (x : SX.Idx → EReal) (W : SW.Idx → EReal) (b : SB.Idx → EReal) (t : Fin 16)
    (v0 : Vec Ideal S1x64 .f32) (v2 v7 v11 v15 : Vec Ideal S1024x512 .f32) (v3 v8 v12 v16 : Vec Ideal S64x512 .f32)
    (h0 : ∀ e : Fin 64, v0 (ix2 (0 : Fin 1) e) = b (ix1 e))
    (h2  : ∀ (p : Fin 1024) (k : Fin 512), v2  (ix2 p k) = x (ix2 (⟨t.val * 1024 + p.val, row_lt t p⟩ : Fin 16384) (⟨k.val, col_lt0 k⟩ : Fin 2048)))
    (h7  : ∀ (p : Fin 1024) (k : Fin 512), v7  (ix2 p k) = x (ix2 (⟨t.val * 1024 + p.val, row_lt t p⟩ : Fin 16384) (⟨512 + k.val, col_lt1 k⟩ : Fin 2048)))
    (h11 : ∀ (p : Fin 1024) (k : Fin 512), v11 (ix2 p k) = x (ix2 (⟨t.val * 1024 + p.val, row_lt t p⟩ : Fin 16384) (⟨1024 + k.val, col_lt2 k⟩ : Fin 2048)))
    (h15 : ∀ (p : Fin 1024) (k : Fin 512), v15 (ix2 p k) = x (ix2 (⟨t.val * 1024 + p.val, row_lt t p⟩ : Fin 16384) (⟨1536 + k.val, col_lt3 k⟩ : Fin 2048)))
    (h3  : ∀ (e : Fin 64) (k : Fin 512), v3  (ix2 e k) = W (ix2 e (⟨k.val, col_lt0 k⟩ : Fin 2048)))
    (h8  : ∀ (e : Fin 64) (k : Fin 512), v8  (ix2 e k) = W (ix2 e (⟨512 + k.val, col_lt1 k⟩ : Fin 2048)))
    (h12 : ∀ (e : Fin 64) (k : Fin 512), v12 (ix2 e k) = W (ix2 e (⟨1024 + k.val, col_lt2 k⟩ : Fin 2048)))
    (h16 : ∀ (e : Fin 64) (k : Fin 512), v16 (ix2 e k) = W (ix2 e (⟨1536 + k.val, col_lt3 k⟩ : Fin 2048)))
    (p : Fin 1024) (q : Fin 64) :
    k0_pay1 (F := Ideal) v0 v2 v3 v7 v8 v11 v12 v15 v16 (ix2 p q)
      = G x W b (ix2 (⟨t.val * 1024 + p.val, row_lt t p⟩ : Fin 16384) q) := by
  rw [pay_eq_soft, G_apply]
  exact congrArg (fun L => soft L q) (funext fun e =>
    blockLogit_eq_logit x W b t v0 v2 v7 v11 v15 v3 v8 v12 v16 h0 h2 h7 h11 h15 h3 h8 h12 h16 p e)

end Cert.KernelIdeal.PayValue

end
-- ==== Proof.KIValue.lean ====
/-
  What the router kernel's output array holds after the run, as one function of the three argument arrays.

  Point t of the grid writes back rows 1024·t … 1024·t + 1023 of the output. What it writes is the body's value
  of the six input blocks at t; those blocks are rows 1024·t … of the activations cut into four column quarters,
  the four column quarters of the whole weight array, and the bias as a row. So row p of the stored block is the
  softmax of the logits of token 1024·t + p, and the sixteen blocks tile the output: the array ends at the
  specification's function of the arguments.
-/
import proofs.«141710_g76192719831303_cont_9to1_m_326_23_alg».proof.Proof.KIRun
import proofs.«141710_g76192719831303_cont_9to1_m_326_23_alg».proof.Proof.KernelPay
import proofs.«141710_g76192719831303_cont_9to1_m_326_23_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx Cert.RouterSpec

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: at point `t` the four activation windows and the output are at block row `t`,
    activation window `k` at block column `k`; the weights and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = t.val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 16 := by
  have h1 := t.isLt
  have h2 : cfg0.N = 16 := N_0
  omega

/-- The bias row the region reads is the bias, reshaped by the one host operation before the region. -/
theorem V_bias_row (c : Dev nD) :
    (V m c main_call0_v0 : S1x64.Idx → EReal) = shapeCast S1x64 (m ((c : Thread nD τ).loc main_arg2)) shapeCasts_S64_S1x64 := by
  dsimp only [V, hostOps0]; after_results; rfl

/-- So the bias window's block, the whole row at every point, is the bias. -/
theorem bias_apply (c : Dev nD) (t : Fin cfg0.N) (e : Fin 64) :
    iblk m c 5 t (ix2 (0 : Fin 1) e) = m ((c : Thread nD τ).loc main_arg2) (ix1 e) := by
  obtain ⟨-, -, -, -, -, -, -, -, -, -, e10, e11, -⟩ := idx_facts t
  show V m c main_call0_v0 (((cfg0.win 5).blk t).view.emb (ix2 (0 : Fin 1) e)) = _
  have hidx : ((cfg0.win 5).blk t).view.emb (ix2 (0 : Fin 1) e) = ix2 (0 : Fin 1) e := by
    funext a; apply Fin.ext
    match a with
    | ⟨0, _⟩ => show win0_5.index t (0 : Fin 2) * 1 + 1 * 0 = 0; omega
    | ⟨1, _⟩ => show win0_5.index t (1 : Fin 2) * 64 + 1 * e.val = e.val; omega
  rw [hidx, V_bias_row, shapeCast_addUnit_apply]
  congr 1
  funext d; match d with | ⟨0, _⟩ => rfl

/-- Activation window 0 at point `t`: rows 1024·t …, columns 0 … 511. -/
theorem act0_apply (c : Dev nD) (t : Fin cfg0.N) (p : Fin 1024) (k : Fin 512) :
    iblk m c 0 t (ix2 p k) = m ((c : Thread nD τ).loc main_arg0)
      (ix2 (⟨t.val * 1024 + p.val, PayValue.row_lt ⟨t.val, t_lt t⟩ p⟩ : Fin 16384) (⟨k.val, PayValue.col_lt0 k⟩ : Fin 2048)) := by
  obtain ⟨e0, e1, e2, e3, e4, e5, e6, e7, -⟩ := idx_facts t
  show V m c main_arg0 (((cfg0.win 0).blk t).view.emb (ix2 p k)) = _
  rw [V_main_arg0]
  congr 1
  funext a; apply Fin.ext
  match a with
  | ⟨0, _⟩ => show win0_0.index t (0 : Fin 2) * 1024 + 1 * p.val = t.val * 1024 + p.val; omega
  | ⟨1, _⟩ => show win0_0.index t (1 : Fin 2) * 512 + 1 * k.val = k.val; omega

/-- Activation window 1 at point `t`: rows 1024·t …, columns 512 … 1023. -/
theorem act1_apply (c : Dev nD) (t : Fin cfg0.N) (p : Fin 1024) (k : Fin 512) :
    iblk m c 1 t (ix2 p k) = m ((c : Thread nD τ).loc main_arg0)
      (ix2 (⟨t.val * 1024 + p.val, PayValue.row_lt ⟨t.val, t_lt t⟩ p⟩ : Fin 16384) (⟨512 + k.val, PayValue.col_lt1 k⟩ : Fin 2048)) := by
  obtain ⟨e0, e1, e2, e3, e4, e5, e6, e7, -⟩ := idx_facts t
  show V m c main_arg0 (((cfg0.win 1).blk t).view.emb (ix2 p k)) = _
  rw [V_main_arg0]
  congr 1
  funext a; apply Fin.ext
  match a with
  | ⟨0, _⟩ => show win0_1.index t (0 : Fin 2) * 1024 + 1 * p.val = t.val * 1024 + p.val; omega
  | ⟨1, _⟩ => show win0_1.index t (1 : Fin 2) * 512 + 1 * k.val = 512 + k.val; omega

/-- Activation window 2 at point `t`: rows 1024·t …, columns 1024 … 1535. -/
theorem act2_apply (c : Dev nD) (t : Fin cfg0.N) (p : Fin 1024) (k : Fin 512) :
    iblk m c 2 t (ix2 p k) = m ((c : Thread nD τ).loc main_arg0)
      (ix2 (⟨t.val * 1024 + p.val, PayValue.row_lt ⟨t.val, t_lt t⟩ p⟩ : Fin 16384) (⟨1024 + k.val, PayValue.col_lt2 k⟩ : Fin 2048)) := by
  obtain ⟨e0, e1, e2, e3, e4, e5, e6, e7, -⟩ := idx_facts t
  show V m c main_arg0 (((cfg0.win 2).blk t).view.emb (ix2 p k)) = _
  rw [V_main_arg0]
  congr 1
  funext a; apply Fin.ext
  match a with
  | ⟨0, _⟩ => show win0_2.index t (0 : Fin 2) * 1024 + 1 * p.val = t.val * 1024 + p.val; omega
  | ⟨1, _⟩ => show win0_2.index t (1 : Fin 2) * 512 + 1 * k.val = 1024 + k.val; omega

/-- Activation window 3 at point `t`: rows 1024·t …, columns 1536 … 2047. -/
theorem act3_apply (c : Dev nD) (t : Fin cfg0.N) (p : Fin 1024) (k : Fin 512) :
    iblk m c 3 t (ix2 p k) = m ((c : Thread nD τ).loc main_arg0)
      (ix2 (⟨t.val * 1024 + p.val, PayValue.row_lt ⟨t.val, t_lt t⟩ p⟩ : Fin 16384) (⟨1536 + k.val, PayValue.col_lt3 k⟩ : Fin 2048)) := by
  obtain ⟨e0, e1, e2, e3, e4, e5, e6, e7, -⟩ := idx_facts t
  show V m c main_arg0 (((cfg0.win 3).blk t).view.emb (ix2 p k)) = _
  rw [V_main_arg0]
  congr 1
  funext a; apply Fin.ext
  match a with
  | ⟨0, _⟩ => show win0_3.index t (0 : Fin 2) * 1024 + 1 * p.val = t.val * 1024 + p.val; omega
  | ⟨1, _⟩ => show win0_3.index t (1 : Fin 2) * 512 + 1 * k.val = 1536 + k.val; omega

/-- Columns 0 … 511 of the weight window, which is the whole weight array at every point. -/
theorem wt0_apply (c : Dev nD) (t : Fin cfg0.N) (e : Fin 64) (k : Fin 512) :
    View.ld (iblk m c 4 t) rWt0 (ix2 e k) = m ((c : Thread nD τ).loc main_arg1) (ix2 e (⟨k.val, PayValue.col_lt0 k⟩ : Fin 2048)) := by
  obtain ⟨-, -, -, -, -, -, -, -, e8, e9, -⟩ := idx_facts t
  show V m c main_arg1 (((cfg0.win 4).blk t).view.emb (rWt0.idx (ix2 e k))) = _
  rw [V_main_arg1]
  congr 1
  funext a; apply Fin.ext
  match a with
  | ⟨0, _⟩ => show win0_4.index t (0 : Fin 2) * 64 + 1 * (0 + 1 * e.val) = e.val; omega
  | ⟨1, _⟩ => show win0_4.index t (1 : Fin 2) * 2048 + 1 * (0 + 1 * k.val) = k.val; omega

/-- Columns 512 … 1023 of the weight window, which is the whole weight array at every point. -/
theorem wt1_apply (c : Dev nD) (t : Fin cfg0.N) (e : Fin 64) (k : Fin 512) :
    View.ld (iblk m c 4 t) rWt1 (ix2 e k) = m ((c : Thread nD τ).loc main_arg1) (ix2 e (⟨512 + k.val, PayValue.col_lt1 k⟩ : Fin 2048)) := by
  obtain ⟨-, -, -, -, -, -, -, -, e8, e9, -⟩ := idx_facts t
  show V m c main_arg1 (((cfg0.win 4).blk t).view.emb (rWt1.idx (ix2 e k))) = _
  rw [V_main_arg1]
  congr 1
  funext a; apply Fin.ext
  match a with
  | ⟨0, _⟩ => show win0_4.index t (0 : Fin 2) * 64 + 1 * (0 + 1 * e.val) = e.val; omega
  | ⟨1, _⟩ => show win0_4.index t (1 : Fin 2) * 2048 + 1 * (512 + 1 * k.val) = 512 + k.val; omega

/-- Columns 1024 … 1535 of the weight window, which is the whole weight array at every point. -/
theorem wt2_apply (c : Dev nD) (t : Fin cfg0.N) (e : Fin 64) (k : Fin 512) :
    View.ld (iblk m c 4 t) rWt2 (ix2 e k) = m ((c : Thread nD τ).loc main_arg1) (ix2 e (⟨1024 + k.val, PayValue.col_lt2 k⟩ : Fin 2048)) := by
  obtain ⟨-, -, -, -, -, -, -, -, e8, e9, -⟩ := idx_facts t
  show V m c main_arg1 (((cfg0.win 4).blk t).view.emb (rWt2.idx (ix2 e k))) = _
  rw [V_main_arg1]
  congr 1
  funext a; apply Fin.ext
  match a with
  | ⟨0, _⟩ => show win0_4.index t (0 : Fin 2) * 64 + 1 * (0 + 1 * e.val) = e.val; omega
  | ⟨1, _⟩ => show win0_4.index t (1 : Fin 2) * 2048 + 1 * (1024 + 1 * k.val) = 1024 + k.val; omega

/-- Columns 1536 … 2047 of the weight window, which is the whole weight array at every point. -/
theorem wt3_apply (c : Dev nD) (t : Fin cfg0.N) (e : Fin 64) (k : Fin 512) :
    View.ld (iblk m c 4 t) rWt3 (ix2 e k) = m ((c : Thread nD τ).loc main_arg1) (ix2 e (⟨1536 + k.val, PayValue.col_lt3 k⟩ : Fin 2048)) := by
  obtain ⟨-, -, -, -, -, -, -, -, e8, e9, -⟩ := idx_facts t
  show V m c main_arg1 (((cfg0.win 4).blk t).view.emb (rWt3.idx (ix2 e k))) = _
  rw [V_main_arg1]
  congr 1
  funext a; apply Fin.ext
  match a with
  | ⟨0, _⟩ => show win0_4.index t (0 : Fin 2) * 64 + 1 * (0 + 1 * e.val) = e.val; omega
  | ⟨1, _⟩ => show win0_4.index t (1 : Fin 2) * 2048 + 1 * (1536 + 1 * k.val) = 1536 + k.val; omega

/-- The specification's array of the launch arguments on core `c`. -/
abbrev Gc (c : Dev nD) : S16384x64.Idx → EReal :=
  G (m ((c : Thread nD τ).loc main_arg0)) (m ((c : Thread nD τ).loc main_arg1)) (m ((c : Thread nD τ).loc main_arg2))

/-- What point `t` writes back is block `t` of the specification's array. -/
theorem flushed_eq (c : Dev nD) (t : Fin cfg0.N) :
    (dats m 0 c).flushed 6 t = ((cfg0.win 6).blk t).view.read (Elt Ideal) (Gc m c) := by
  show (cfg0.win 6).cut (grid0.coords t) ((dats m 0 c).after 6 t) = _
  rw [after0_6]
  unfold outBuf
  rw [View.canon_unit_zero hz]
  obtain ⟨-, -, -, -, -, -, -, -, -, -, -, -, e12, e13⟩ := idx_facts t
  funext j
  obtain ⟨p, q, rfl⟩ : ∃ (p : Fin 1024) (q : Fin 64), j = ix2 p q := ⟨j 0, j 1, eq_ix2 j⟩
  show stored (iblk m c 0 t) (iblk m c 1 t) (iblk m c 2 t) (iblk m c 3 t) (iblk m c 4 t) (iblk m c 5 t) (ix2 p q)
    = Gc m c (((cfg0.win 6).blk t).view.emb (ix2 p q))
  unfold stored
  simp only [View.ld_unit_zero (S := S1024x512) hz, View.ld_unit_zero (S := S1x64) hz]
  refine (PayValue.pay_eq_G (m ((c : Thread nD τ).loc main_arg0)) (m ((c : Thread nD τ).loc main_arg1)) (m ((c : Thread nD τ).loc main_arg2))
    ⟨t.val, t_lt t⟩ _ _ _ _ _ _ _ _ _ (bias_apply m c t) (act0_apply m c t) (act1_apply m c t) (act2_apply m c t) (act3_apply m c t)
    (wt0_apply m c t) (wt1_apply m c t) (wt2_apply m c t) (wt3_apply m c t) p q).trans ?_
  show Gc m c _ = Gc m c _
  congr 1
  funext a; apply Fin.ext
  match a with
  | ⟨0, _⟩ => show t.val * 1024 + p.val = win0_6.index t (0 : Fin 2) * 1024 + 1 * p.val; omega
  | ⟨1, _⟩ => show q.val = win0_6.index t (1 : Fin 2) * 64 + 1 * q.val; omega

/-- An index of the output array is in point `t`'s block iff each coordinate is in the block's range on its axis. -/
theorem mem_blk (t : Fin cfg0.N) (i : S16384x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v0).slice (win0_6.rect t)).set ↔ _
  rw [View.set_slice_whole, Rect.mem_set_unit]
  exact Iff.rfl

/-- The sixteen blocks tile the output array: row r lies in the block of point r / 1024. -/
theorem cover (i : S16384x64.Idx) : ∃ t : Fin cfg0.N, (cfg0.win 6).flush t = true ∧ i ∈ ((cfg0.win 6).blk t).view.set := by
  have hi0 : (i 0).val < 16384 := (i 0).isLt
  have hi1 : (i 1).val < 64 := (i 1).isLt
  have hN : cfg0.N = 16 := N_0
  have ht : (i 0).val / 1024 < cfg0.N := by omega
  obtain ⟨-, -, -, -, -, -, -, -, -, -, -, -, e12, e13⟩ := idx_facts ⟨(i 0).val / 1024, ht⟩
  have e12' : win0_6.index ⟨(i 0).val / 1024, ht⟩ (0 : Fin 2) = (i 0).val / 1024 := e12
  refine ⟨⟨(i 0).val / 1024, ht⟩, flush0_6 _, ?_⟩
  rw [mem_blk]
  intro a
  match a with
  | ⟨0, _⟩ => show win0_6.index ⟨(i 0).val / 1024, ht⟩ (0 : Fin 2) * 1024 ≤ (i 0).val ∧ (i 0).val < win0_6.index ⟨(i 0).val / 1024, ht⟩ (0 : Fin 2) * 1024 + 1024; omega
  | ⟨1, _⟩ => show win0_6.index ⟨(i 0).val / 1024, ht⟩ (1 : Fin 2) * 64 ≤ (i 1).val ∧ (i 1).val < win0_6.index ⟨(i 0).val / 1024, ht⟩ (1 : Fin 2) * 64 + 64; omega

/-- The output array after the run is the specification's array of the launch arguments. -/
theorem final (c : Dev nD) : (dats m 0 c).arrAt 6 cfg0.N = Gc m c :=
  (dats m 0 c).arrAt_eq_of_cover 6 (Gc m c) (fun t _ => flushed_eq m c t) cover

/-- The run, read: the result is the router's function of the three arguments, which end unchanged. -/
theorem run : θ_run defs (onTc (τ := τ) (main (F := Ideal))) ⟨m, fun _ => 0, ρ⟩ fun r => ∀ c : Dev nD,
      r.2.mem ((c : Thread nD τ).loc main_v0) = Gc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Val

end
-- ==== Proof.RefValue.lean ====
import proofs.«141710_g76192719831303_cont_9to1_m_326_23_alg».proof.Proof.Gen.ReferenceIdeal.Read
import proofs.«141710_g76192719831303_cont_9to1_m_326_23_alg».proof.Proof.Spec
import Idealize.ShloMosaic.PureOps.Reduce
import Idealize.ShloMosaic.PureOps.Ideal.Laws
import Idealize.ShloMosaic.Lib.ValueIdx
import Mathlib.Data.Finset.Fold

/-
  The reference program's result is the router specification Cert.RouterSpec.G of its three arguments.

  The reference computes, for token r and expert e, the product of row r of the activations with column e of the
  transposed gate weights, adds the bias broadcast down the rows, takes each row's maximum (a reduction from minus
  infinity, then once more the maximum with minus infinity), subtracts it, exponentiates, sums each row from zero and
  divides. Read at an index (r, e), every stage is the specification's: the transpose and the broadcasts only move
  coordinates; the second maximum with minus infinity changes nothing because minus infinity is the value the fold
  started from, hence below it; the sum's initial value is zero.
-/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.RouterSpec

variable (x : FVec Ideal S16384x2048 .f32) (W : FVec Ideal S64x2048 .f32) (b : FVec Ideal S64 .f32)

/-- The biased product at (r, e) is the specification's logit: the transpose reads the weights at (e, k), the two
    broadcasts read the bias at e. -/
theorem v4_apply (r : Fin 16384) (e : Fin 64) :
    val_main_v4 (F := Ideal) x W b (ix2 r e) = logit x W b r e := by
  rw [val_main_v4_apply, val_main_v1_apply, val_main_v3_apply, val_main_v2_apply]
  unfold logit
  show (∑ k : Fin 2048, _) + _ = _
  congr 1
  · refine Finset.sum_congr rfl fun k _ => ?_
    rw [val_main_v0_apply]
    congr 1
    · exact congrArg x (funext fun a => match a with | ⟨0, _⟩ => rfl | ⟨1, _⟩ => rfl)
    · exact congrArg W (funext fun a => match a with | ⟨0, _⟩ => rfl | ⟨1, _⟩ => rfl)
  · exact congrArg b (funext fun a => match a with | ⟨0, _⟩ => rfl)

/-- The shape fact by which the reduction over the columns inserts a coordinate. -/
theorem reduces_d1 : S16384x64.Reduces [1] S16384 := by decide

/-- The reduction from minus infinity over the columns of row r is the specification's row maximum. -/
theorem v5_apply (r : Fin 16384) :
    val_main_v5 (F := Ideal) x W b (ix1 r) = rowMax (logit x W b r) := by
  unfold val_main_v5
  rw [Host.reduce_eq_fold_single FloatOps.maximumf _ _ reducesTo_S16384x64_S16384_d1 reduces_d1 h_S_ (ix1 r)]
  unfold rowMax
  show (Finset.univ : Finset (Fin 64)).fold max negInf _ = _
  refine Finset.fold_congr fun k _ => ?_
  show val_main_v4 (F := Ideal) x W b (reduces_d1.lift (ix1 r) k) = _
  rw [← v4_apply x W b r k]
  exact congrArg (val_main_v4 (F := Ideal) x W b)
    (funext fun a => Fin.ext (by match a with | ⟨0, _⟩ => rfl | ⟨1, _⟩ => rfl))

/-- Minus infinity is below a fold of max that starts from it. -/
theorem negInf_le_rowMax (L : Fin 64 → EReal) : negInf ≤ rowMax L :=
  (Finset.le_fold_max negInf).2 (Or.inl le_rfl)

/-- The row maximum the reference subtracts: the maximum of minus infinity and the reduction, which is the reduction. -/
theorem v7_apply (r : Fin 16384) :
    val_main_v7 (F := Ideal) x W b (ix1 r) = rowMax (logit x W b r) := by
  rw [val_main_v7_apply, v5_apply, val_main_v6_apply, val_main_cst_0_apply]
  exact max_eq_right (negInf_le_rowMax _)

/-- Broadcast back over the columns, the row maximum at (r, e) is row r's. -/
theorem v9_apply (r : Fin 16384) (e : Fin 64) :
    val_main_v9 (F := Ideal) x W b (ix2 r e) = rowMax (logit x W b r) := by
  rw [val_main_v9_apply, val_main_v8_apply, ← v7_apply x W b r]
  exact congrArg (val_main_v7 (F := Ideal) x W b) (funext fun a => match a with | ⟨0, _⟩ => rfl)

/-- The exponential of the shifted logit at (r, e). -/
theorem v11_apply (r : Fin 16384) (e : Fin 64) :
    val_main_v11 (F := Ideal) x W b (ix2 r e)
      = Ideal.exp (logit x W b r e - rowMax (logit x W b r)) := by
  rw [val_main_v11_apply, val_main_v10_apply, v4_apply, v9_apply]
  rfl

/-- Row r's sum of exponentials: the initial value is zero. -/
theorem v12_apply (r : Fin 16384) :
    val_main_v12 (F := Ideal) x W b (ix1 r)
      = ∑ e' : Fin 64, Ideal.exp (logit x W b r e' - rowMax (logit x W b r)) := by
  rw [val_main_v12_apply, val_main_cst_1_apply]
  show Ideal.ofBits .f32 0x00000000#32 + _ = _
  rw [Ideal.ofBits_zero_f32, zero_add]
  refine Finset.sum_congr rfl fun k _ => ?_
  rw [← v11_apply x W b r k]
  exact congrArg (val_main_v11 (F := Ideal) x W b) (funext fun a => match a with | ⟨0, _⟩ => rfl | ⟨1, _⟩ => rfl)

/-- Broadcast back over the columns, the sum at (r, e) is row r's. -/
theorem v14_apply (r : Fin 16384) (e : Fin 64) :
    val_main_v14 (F := Ideal) x W b (ix2 r e)
      = ∑ e' : Fin 64, Ideal.exp (logit x W b r e' - rowMax (logit x W b r)) := by
  rw [val_main_v14_apply, val_main_v13_apply, ← v12_apply x W b r]
  exact congrArg (val_main_v12 (F := Ideal) x W b) (funext fun a => match a with | ⟨0, _⟩ => rfl)

/-- The reference's last stage, as a function of the three arguments, is the router specification. -/
theorem result_eq : val_main_v15 (F := Ideal) x W b = G x W b := by
  funext i
  obtain ⟨r, e, rfl⟩ : ∃ (r : Fin 16384) (e : Fin 64), i = ix2 r e :=
    ⟨i 0, i 1, eq_ix2 (n0 := 16384) (n1 := 64) i⟩
  rw [G_apply, val_main_v15_apply, v11_apply, v14_apply]
  rfl

/-- Every weakly fair execution of the reference terminates with the result buffer at the router specification of
    the three argument buffers' launch contents, the arguments unchanged. -/
theorem run_G (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v15)
          = G (m' ((c.tc : Thread nD τ).loc main_arg0)) (m' ((c.tc : Thread nD τ).loc main_arg1))
              (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run _ _ _).mono (fun _ h c => ⟨((h c).1.trans (val_main_v15_eq _ _ _)).trans (result_eq _ _ _), (h c).2⟩)
    (Cert.ReferenceIdeal.Value.run (F := Ideal) m' ρ')

end Cert.ReferenceIdeal.RefValue

end
-- ==== Proof.lean ====
/-
  The certificate of the mixture-of-experts router kernel against its reference.

  Both programs compute, for every token, the softmax over 64 experts of the logits x·Wᵀ + bias. The kernel runs
  one pipelined region over 16 blocks of 1024 tokens; it reads each block of activations through four windows (one
  per 512-column quarter), accumulates the four partial products onto the bias, and takes the stable softmax of each
  row. The reference does one product over all 2048 features, adds the bias, and takes the same stable softmax.
  Over the extended reals the two logits agree because a sum over 2048 terms is the sum of its four quarters and
  addition is commutative and associative; everything after the logits is the same operations on both sides.

  The three frames: the kernel's, at the word level and idealized, from the region's run; the reference's from its
  run. The idealization rewrote nothing, so there is nothing to preserve. The algebraic claim sets the two runs side
  by side at the specification's function of the (agreeing) arguments.
-/
import proofs.«141710_g76192719831303_cont_9to1_m_326_23_alg».proof.Defs
import proofs.«141710_g76192719831303_cont_9to1_m_326_23_alg».proof.Proof.Gen.Kernel
import proofs.«141710_g76192719831303_cont_9to1_m_326_23_alg».proof.Proof.Gen.KernelIdeal
import proofs.«141710_g76192719831303_cont_9to1_m_326_23_alg».proof.Proof.Gen.ReferenceIdeal
import proofs.«141710_g76192719831303_cont_9to1_m_326_23_alg».proof.Proof.Gen.Pre_finite_inputs
import proofs.«141710_g76192719831303_cont_9to1_m_326_23_alg».proof.Proof.KRun
import proofs.«141710_g76192719831303_cont_9to1_m_326_23_alg».proof.Proof.KIValue
import proofs.«141710_g76192719831303_cont_9to1_m_326_23_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.RefValue.run_G m ρ)

/-- From memories that agree on the three arguments both programs end with the router's function of them. -/
theorem algebraic : Cert.algebraic_KernelIdeal_ReferenceIdeal := by
  intro m ρ m' ρ' _ hagree
  refine ⟨fun c => Cert.KernelIdeal.Val.Gc m c, Cert.KernelIdeal.Val.run m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
